-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S320x10000 : Shape := ⟨2, ![320, 10000]⟩
abbrev S320x128 : Shape := ⟨2, ![320, 128]⟩
abbrev S10240x128 : Shape := ⟨2, ![10240, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S320x10000, .f32⟩
  | .local _ .vmem, ⟨5, _⟩ => ⟨S320x10000, .f32⟩
  | .local _ .vmem, ⟨6, _⟩ => ⟨S320x128, .f32⟩
  | .local _ .vmem, ⟨7, _⟩ => ⟨S320x128, .f32⟩
  | .local _ .vmem, ⟨8, _⟩ => ⟨S10000x128, .f32⟩
  | .local _ .vmem, ⟨9, _⟩ => ⟨S10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c320_i32 : BitVec 32 := 320#32
  let v6 : BitVec 32 := Scalar.muli arg0 c320_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10240x128_S10000x128_0_0 : ∀ a, (![0, 0] : Fin 2 → Nat) a + S10000x128.size a ≤ S10240x128.size a
  inb_S320x10000_S320x10000_0_0 : ∀ a, (![0, 0] : Fin 2 → Nat) a + S320x10000.size a ≤ S320x10000.size a
  h_S320x10000 : 0 < S320x10000.numel
  h_S320x128 : 0 < S320x128.numel
  inb_S320x128_S320x128_0_0 : ∀ a, (![0, 0] : Fin 2 → Nat) a + S320x128.size a ≤ S320x128.size a
  dot_S10000x128_S128x128_S10000x128_1_0_0_1_n_n_wf : DotDims.WF S10000x128 S128x128 S10000x128 [1] [0] [0] [1] [] []
  dot_S320x10000_S10000x128_S320x128_1_0_0_1_n_n_wf : DotDims.WF S320x10000 S10000x128 S320x128 [1] [0] [0] [1] [] []
  hrank0 : 0 < grid0.rank
  k0_off1_inb : ∀ i : grid0.Coords, ∀ a, (k0_off1 i) a + S320x128.size a ≤ S10240x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S320x10000.size a < S10000x10000.size a
  hwx0_4 : ∀ i : grid0.Coords, EltTy.bits .f32 = 32 ∨ (Rect.unit (s := S10000x10000) (fun a => cc0_transform_4 i a * S320x10000.size a) (fun a => (Pipeline.Clip.of (cc0_transform_4 i a) (S320x10000.size a) (S10000x10000.size a)).extent (S320x10000.size a)) fun a => Pipeline.Clip.inb (Pipeline.Clip.ok_of (hstart0_4 i a))).WholeWords (EltTy.packing .f32)
  hwxs0_4 : ∀ i : grid0.Coords, EltTy.bits .f32 = 32 ∨ (Rect.unit (s := S320x10000) (fun _ => 0) (fun a => (Pipeline.Clip.of (cc0_transform_4 i a) (S320x10000.size a) (S10000x10000.size a)).extent (S320x10000.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S320x128.size a < S10000x128.size a
  hwx0_5 : ∀ i : grid0.Coords, EltTy.bits .f32 = 32 ∨ (Rect.unit (s := S10000x128) (fun a => cc0_transform_5 i a * S320x128.size a) (fun a => (Pipeline.Clip.of (cc0_transform_5 i a) (S320x128.size a) (S10000x128.size a)).extent (S320x128.size a)) fun a => Pipeline.Clip.inb (Pipeline.Clip.ok_of (hstart0_5 i a))).WholeWords (EltTy.packing .f32)
  hwxs0_5 : ∀ i : grid0.Coords, EltTy.bits .f32 = 32 ∨ (Rect.unit (s := S320x128) (fun _ => 0) (fun a => (Pipeline.Clip.of (cc0_transform_5 i a) (S320x128.size a) (S10000x128.size a)).extent (S320x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S320x10000_S10000x128_S320x128_1_0_0_1_n_n : DotDims S320x10000 S10000x128 S320x128 where
  lhsContracting := [1]
  rhsContracting := [0]
  lhsNonContracting := [0]
  rhsNonContracting := [1]
  lhsBatch := []
  rhsBatch := []
  wf := dot_S320x10000_S10000x128_S320x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg1) S320x10000.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v1) S320x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBody.lean ====
/-
  The kernel body as a Hoare triple, at any float instance.

  The body runs at every grid point i (32 points, 320 rows each). At the first point it fills two resident buffers:
  the support S = x · W (all 10000 rows) and the first 10000 rows of a 10240-row buffer with x · Wl + b. At every
  point it stores, into the output block, adjBlock · S + (rows [320·i, 320·i + 320) of the tall buffer).
  Two triples: the first point (both resident buffers written, then read) and a later point (both only read). Each
  names what every buffer holds afterwards as a function of what it held before.
-/
import proofs.«178778_g28991029248529_cont_9to1_2130_11_alg».proof.Proof.Gen.Kernel.Frame
import proofs.«178778_g28991029248529_cont_9to1_2130_11_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: is this the first grid point? -/

/-- The body's one condition, as its scalar chain computes it from the grid coordinate. -/
abbrev firstPoint (i : grid0.Coords) : Prop :=
  (Scalar.cmpi .ne (Scalar.extui (Scalar.cmpi .eq (BitVec.ofNat 32 (i 0).val) 0#32)) 0#32) = 1#1

/-- It holds at point 0 and at no other of the 32 points. -/
theorem firstPoint_iff : ∀ t : Fin cfg0.N, firstPoint (grid0.coords t) ↔ t.val = 0 :=
  (by decide +kernel : ∀ t : Fin grid0.N, firstPoint (grid0.coords t) ↔ t.val = 0)

/-! ## What the buffers hold afterwards -/

/-- The 320 rows of the tall buffer that the body adds at coordinates `i`: rows [320·i, 320·i + 320). -/
abbrev rowsRect (i : grid0.Coords) : Rect S10240x128 :=
  Rect.unit (s := S10240x128) (k0_off1 i) S320x128.size (k0_off1_inb i)

/-- The tall buffer after the first point: rows below 10000 hold `x · Wl + b`, the last 240 rows what they held. -/
def tallAfter (x1 : Vec F S10000x128 .f32) (x3 : Vec F S128x128 .f32) (x4 : Vec F S1x128 .f32) (y8 : Vec F S10240x128 .f32) :
    Vec F S10240x128 .f32 :=
  fun y => if h : (y 0).val < 10000 then k0_pay2 x1 x3 x4 (ix2 ⟨(y 0).val, h⟩ ⟨(y 1).val, (y 1).isLt⟩) else y8 y

/-- The output block: the adjacency block times the support, plus the tall buffer's rows for this point. -/
def outBlock (i : grid0.Coords) (x5 : Vec F S320x10000 .f32) (s : Vec F S10000x128 .f32) (tall : Vec F S10240x128 .f32) :
    Vec F S320x128 .f32 :=
  k0_pay3 x5 s (View.ld tall (rowsRect i))

theorem zeros2 : (![0, 0] : Fin 2 → Nat) = fun _ => 0 := funext fun a => by fin_cases a <;> rfl

/-! ## Whole-buffer loads and stores, read back -/

/-- One store through the whole rank-2 buffer leaves its payload. -/
theorem read_whole_store {d : Fin 2 → ℕ} (v : View sig .tc .vmem (⟨2, d⟩ : Shape) .f32) (f : v.ty.Contents (Elt F))
    (inb : ∀ a, (![0, 0] : Fin 2 → ℕ) a + (⟨2, d⟩ : Shape).size a ≤ (⟨2, d⟩ : Shape).size a) (w : Vec F (⟨2, d⟩ : Shape) .f32) :
    v.read (Elt F) (v.writes (Elt F) f
      [(⟨Rect.unit (s := (⟨2, d⟩ : Shape)) ![0, 0] (⟨2, d⟩ : Shape).size inb, w⟩ : View.Piece (Elt F) (⟨2, d⟩ : Shape) .f32)]) = w := by
  funext y
  exact View.read_writes_cons_unit_of_mem v f inb w [] y y zeros2 (fun a => (Nat.zero_add _).symm)

/-- A load through the whole rank-2 buffer reads its contents. -/
theorem readAt_whole {d : Fin 2 → ℕ} (mr : Memref sig .tc .vmem (⟨2, d⟩ : Shape) .f32) (h : mr.IsWhole)
    (inb : ∀ a, (![0, 0] : Fin 2 → ℕ) a + (⟨2, d⟩ : Shape).size a ≤ (⟨2, d⟩ : Shape).size a) (x : Vec F (⟨2, d⟩ : Shape) .f32) :
    View.readAt (Elt F) mr.view (Rect.unit (s := (⟨2, d⟩ : Shape)) ![0, 0] (⟨2, d⟩ : Shape).size inb).toLoadRect (h.unread x) = x := by
  rw [View.readAt_eq_ld, h.read_unread]
  exact View.ld_unit_zero (S := (⟨2, d⟩ : Shape)) zeros2 inb x

/-- A load of the rows a point adds, of a buffer whose contents read `y`. -/
theorem readAt_rows (mr : Memref sig .tc .vmem S10240x128 .f32) (f : mr.view.ty.Contents (Elt F)) (y : Vec F S10240x128 .f32)
    (hf : mr.view.read (Elt F) f = y) (i : grid0.Coords) :
    View.readAt (Elt F) mr.view (rowsRect i).toLoadRect f = View.ld y (rowsRect i) := by
  rw [View.readAt_eq_ld, hf]

/-! ## A later point -/

set_option maxHeartbeats 1000000 in
/-- At a point that is not the first the body only reads the two resident buffers: every buffer but the output's
    keeps its contents, and the output's ends at `outBlock`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S320x10000 .f32) (harg5 : arg5.IsWhole) (arg6 : Memref sig .tc .vmem S320x128 .f32) (harg6 : arg6.IsWhole)
    (arg7 : Memref sig .tc .vmem S10000x128 .f32) (harg7 : arg7.IsWhole) (arg8 : Memref sig .tc .vmem S10240x128 .f32) (harg8 : arg8.IsWhole)
    (hc : ¬firstPoint i)
    (x1 : Vec F S10000x128 .f32) (x2 x3 : Vec F S128x128 .f32) (x4 : Vec F S1x128 .f32) (x5 : Vec F S320x10000 .f32) (x6 : Vec F S320x128 .f32)
    (y7 : Vec F S10000x128 .f32) (y8 : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare y8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outBlock i x5 y7 y8)
            ∗ owns (c : Thread nD τ) arg7 fullShare y7 ∗ owns (c : Thread nD τ) arg8 fullShare y8) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_whole_store, readAt_whole arg5 harg5, readAt_whole arg7 harg7]
    exact congrArg (k0_pay3 x5 y7) (readAt_rows arg8 _ y8 (harg8.read_unread _) i)
  isplitl [H7]
  · iexists _; isplitr; · ipureintro; exact harg7.read_unread _
    iexact H7
  · iexists _; isplitr; · ipureintro; exact harg8.read_unread _
    iexact H8

/-! ## The first point -/

/-- What one store of the rows below 10000 leaves of the tall buffer, read back. -/
theorem read_tall_store (v : View sig .tc .vmem S10240x128 .f32) (f : v.ty.Contents (Elt F))
    (w : Vec F S10000x128 .f32) (y8 : Vec F S10240x128 .f32) (hf : v.read (Elt F) f = y8)
    (x1 : Vec F S10000x128 .f32) (x3 : Vec F S128x128 .f32) (x4 : Vec F S1x128 .f32) (hw : w = k0_pay2 x1 x3 x4) :
    v.read (Elt F) (v.writes (Elt F) f
      [(⟨Rect.unit (s := S10240x128) ![0, 0] S10000x128.size inb_S10240x128_S10000x128_0_0, w⟩ : View.Piece (Elt F) S10240x128 .f32)])
      = tallAfter x1 x3 x4 y8 := by
  subst hw
  funext y
  unfold tallAfter
  by_cases h : (y 0).val < 10000
  · rw [dif_pos h]
    exact View.read_writes_cons_rows_of_mem (o := 0) v f inb_S10240x128_S10000x128_0_0 _ [] y
      (ix2 ⟨(y 0).val, h⟩ ⟨(y 1).val, (y 1).isLt⟩) rfl (Nat.zero_add _).symm rfl
  · rw [dif_neg h,
      View.read_writes_cons_rows_of_not_mem (o := 0) (W := 10000) v f inb_S10240x128_S10000x128_0_0 _ [] y rfl rfl
        (Or.inr (by omega)),
      View.writes_nil, hf]

set_option maxHeartbeats 2000000 in
/-- At the first point the body fills the support buffer with `x · W` and the tall buffer's first 10000 rows with
    `x · Wl + b`, then computes the output block from what it has just stored. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S320x10000 .f32) (harg5 : arg5.IsWhole) (arg6 : Memref sig .tc .vmem S320x128 .f32) (harg6 : arg6.IsWhole)
    (arg7 : Memref sig .tc .vmem S10000x128 .f32) (harg7 : arg7.IsWhole) (arg8 : Memref sig .tc .vmem S10240x128 .f32) (harg8 : arg8.IsWhole)
    (hc : firstPoint i)
    (x1 : Vec F S10000x128 .f32) (x2 x3 : Vec F S128x128 .f32) (x4 : Vec F S1x128 .f32) (x5 : Vec F S320x10000 .f32) (x6 : Vec F S320x128 .f32)
    (y7 : Vec F S10000x128 .f32) (y8 : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare y8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outBlock i x5 (k0_pay1 x1 x2) (tallAfter x1 x3 x4 y8))
            ∗ owns (c : Thread nD τ) arg7 fullShare (k0_pay1 x1 x2) ∗ owns (c : Thread nD τ) arg8 fullShare (tallAfter x1 x3 x4 y8)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc)
  sl_step
  iapply Hk
  unfold run_first.sl.v4 run_first.sl.H7_1 run_first.sl.H8_1
  rw [readAt_whole arg1 harg1, readAt_whole arg2 harg2, readAt_whole arg3 harg3, readAt_whole arg4 harg4, readAt_whole arg5 harg5]
  -- the tall buffer after its one store
  have h8 := read_tall_store (F := F) arg8.view (harg8.unread y8) (k0_pay2 x1 x3 x4) y8 (harg8.read_unread _) x1 x3 x4 rfl
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_whole_store, View.readCov_unit_zero (S := S10000x128) arg7.view zeros2]
    exact congrArg (k0_pay3 x5 (k0_pay1 x1 x2)) (readAt_rows arg8 _ _ h8 i)
  isplitl [H7]
  · iexists _; isplitr
    swap; · iexact H7
    ipureintro
    exact read_whole_store _ _ _ _
  · iexists _; isplitr
    swap; · iexact H8
    ipureintro
    exact h8

end Cert.Kernel.Gcn

end
-- ==== Proof.KFrame.lean ====
/-
  The frame of the word-level program, at any float instance: it runs to the end, faults nowhere, and leaves its
  five argument arrays as they were.

  The program is one pipelined call on a grid of 32 points with six windows and two resident buffers. Nothing about
  values is needed: the proof data relate what the body finds in a window's buffer to what it leaves there by the
  relation that holds of everything, and the invariant says only that the two resident buffers and the generator
  register hold something. The body's two triples (first point, later point) take any contents in all eight buffers and
  hand all eight back at some contents, which is all this asks. An input window's array is never written, so it ends
  as it was at the region's entry; the one argument no window stages bypasses the region; and no host operation before
  the region writes an argument.
-/
import proofs.«178778_g28991029248529_cont_9to1_2130_11_alg».proof.Proof.KBody
import Idealize.ShloMosaic.Lib.Pipeline.Frame
import Idealize.ShloMosaic.Lib.Pipeline.Dat
import Idealize.ShloMosaic.Lib.Memref

set_option maxRecDepth 16384

noncomputable section

namespace Cert.Kernel.Gcn

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data -/

/-- The proof data on core `c`: the arrays as the region finds them; of what the body leaves in a window's buffer
    nothing is said; the invariant is the class's (the resident buffers and the generator register at something);
    nothing owed; full shares. -/
def rdats (m : (ℓ : Loc nD τ sig) → Buf (Elt F) ℓ) (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The two resident buffers as whole memrefs. -/
abbrev scr0 : Memref sig .tc .vmem S10000x128 .f32 := Memref.whole cc0_scratch0
abbrev scr1 : Memref sig .tc .vmem S10240x128 .f32 := Memref.whole cc0_scratch1

/-- The invariant with the two resident buffers as owned memrefs, each at some contents. -/
theorem ΦA_eq (c : Dev nD) :
    (Pipeline.ΦA (U := UR sig nD τ) (Val := Elt F) spec0 c : sProp 𝕄)
      = iprop(((∃ d, owns (c : Thread nD τ) scr0 fullShare d) ∗ (∃ d, owns (c : Thread nD τ) scr1 fullShare d))
          ∗ (∃ r, prngReg c r)) := by
  unfold Pipeline.ΦA; rw [scopedRest0_eq]; simp only [owns_whole]; try rfl

/-- The invariant at any point is that. -/
theorem Φ_eq (m : (ℓ : Loc nD τ sig) → Buf (Elt F) ℓ) (c : Dev nD) (t : Fin (cfg0.N + 1)) :
    (rdats m c).Φ t
      = iprop(((∃ d, owns (c : Thread nD τ) scr0 fullShare d) ∗ (∃ d, owns (c : Thread nD τ) scr1 fullShare d))
          ∗ (∃ r, prngReg c r)) := ΦA_eq c

/-! ## The body obligation -/

set_option maxHeartbeats 1000000 in
/-- The body at any point, the windows one by one: whatever the eight buffers hold, it runs and hands each back at
    some contents; the generator register and what the core owes pass through unread. -/
theorem sound_body (m : (ℓ : Loc nD τ sig) → Buf (Elt F) ℓ) (c : Dev nD) (t : Fin cfg0.N)
    (Y : (w : Fin cfg0.W) → (cfg0.win w).block.Idx → Elt F (cfg0.win w).elt) :
    iprop((rdats m c).Φ t.castSucc ∗ (rdats m c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) ((cfg0.win 0).stage (cfg0.slots t 0)) fullShare X)
            ∗ (∃ X, ⌜(rdats m c).after 1 t (Y 1) X⌝ ∗ owns (c : Thread nD τ) ((cfg0.win 1).stage (cfg0.slots t 1)) fullShare X)
            ∗ (∃ X, ⌜(rdats m c).after 2 t (Y 2) X⌝ ∗ owns (c : Thread nD τ) ((cfg0.win 2).stage (cfg0.slots t 2)) fullShare X)
            ∗ (∃ X, ⌜(rdats m c).after 3 t (Y 3) X⌝ ∗ owns (c : Thread nD τ) ((cfg0.win 3).stage (cfg0.slots t 3)) fullShare X)
            ∗ (∃ X, ⌜(rdats m c).after 4 t (Y 4) X⌝ ∗ owns (c : Thread nD τ) ((cfg0.win 4).stage (cfg0.slots t 4)) fullShare X)
            ∗ (∃ X, ⌜(rdats m c).after 5 t (Y 5) X⌝ ∗ owns (c : Thread nD τ) ((cfg0.win 5).stage (cfg0.slots t 5)) fullShare X))) := by
  rw [Φ_eq m c t.castSucc, Φ_eq m c t.succ,
    show (rdats m c).owesAt () t.succ = (rdats m c).owesAt () t.castSucc from rfl]
  unfold bodyAt0
  iintro ⟨⟨⟨⟨%y7, H7⟩, ⟨%y8, H8⟩⟩, Hr⟩, Ho, H0, H1, H2, H3, H4, H5⟩
  by_cases h : t.val = 0
  · iapply (run_first (F := F) c (grid0.coords t) _ _ _ _ _ _ _ _ _ _ _ _ scr0 (Memref.isWhole_whole _) scr1 (Memref.isWhole_whole _)
      ((firstPoint_iff t).mpr h) (Y 0) (Y 1) (Y 2) (Y 3) (Y 4) (Y 5) y7 y8 Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro ⟨G0, G1, G2, G3, G4, G5, G7, G8⟩
    isplitl [G7 G8 Hr]
    · isplitl [G7 G8]
      · isplitl [G7]
        · iexists _; iexact G7
        · iexists _; iexact G8
      · iexact Hr
    isplitl [Ho]; · iexact Ho
    isplitl [G0]
    · iexists _; isplitr
      swap; · iexact G0
      ipureintro; trivial
    isplitl [G1]
    · iexists _; isplitr
      swap; · iexact G1
      ipureintro; trivial
    isplitl [G2]
    · iexists _; isplitr
      swap; · iexact G2
      ipureintro; trivial
    isplitl [G3]
    · iexists _; isplitr
      swap; · iexact G3
      ipureintro; trivial
    isplitl [G4]
    · iexists _; isplitr
      swap; · iexact G4
      ipureintro; trivial
    · iexists _; isplitr
      swap; · iexact G5
      ipureintro; trivial
  · iapply (run_later (F := F) c (grid0.coords t) _ _ _ _ _ _ _ _ _ _ _ _ scr0 (Memref.isWhole_whole _) scr1 (Memref.isWhole_whole _)
      (fun hf => h ((firstPoint_iff t).mp hf)) (Y 0) (Y 1) (Y 2) (Y 3) (Y 4) (Y 5) y7 y8 Set.univ _)
    isplitl [H0]; · iexact H0
    isplitl [H1]; · iexact H1
    isplitl [H2]; · iexact H2
    isplitl [H3]; · iexact H3
    isplitl [H4]; · iexact H4
    isplitl [H5]; · iexact H5
    isplitl [H7]; · iexact H7
    isplitl [H8]; · iexact H8
    iintro ⟨G0, G1, G2, G3, G4, G5, G7, G8⟩
    isplitl [G7 G8 Hr]
    · isplitl [G7 G8]
      · isplitl [G7]
        · iexists _; iexact G7
        · iexists _; iexact G8
      · iexact Hr
    isplitl [Ho]; · iexact Ho
    isplitl [G0]
    · iexists _; isplitr
      swap; · iexact G0
      ipureintro; trivial
    isplitl [G1]
    · iexists _; isplitr
      swap; · iexact G1
      ipureintro; trivial
    isplitl [G2]
    · iexists _; isplitr
      swap; · iexact G2
      ipureintro; trivial
    isplitl [G3]
    · iexists _; isplitr
      swap; · iexact G3
      ipureintro; trivial
    isplitl [G4]
    · iexists _; isplitr
      swap; · iexact G4
      ipureintro; trivial
    · iexists _; isplitr
      swap; · iexact G5
      ipureintro; trivial

/-- The library's body obligation, at every point: nothing of what the buffers may hold is used. -/
theorem body_obligation (m : (ℓ : Loc nD τ sig) → Buf (Elt F) ℓ) (c : Dev nD) :
    (rdats m c).BodyObligation (defs₀ (F := F)) Variants.none () Set.univ := fun t Y _ => by
  rw [bigSep_W0, bigSep_W0]
  exact sound_body m c t Y

/-! ## The run and the frame -/

set_option backward.isDefEq.respectTransparency.types false in
/-- The library's frame run of relational proof data, from any memory with zero counters: every final state has every
    window's array at some contents the proof data allow (an input's: its contents at the region's entry) and every
    other unscoped buffer as the region found it. -/
theorem run_main (m : (ℓ : Loc nD τ sig) → Buf (Elt F) ℓ) (ρ : Dev nD → PrngReg) :
    θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

/-- THE FRAME: the program runs to the end and leaves its five argument arrays as they were. Four are arrays of input
    windows (0, 4, 1, 2), never written, so each ends at its contents at the region's entry; the fifth is no window's
    array and bypasses the region; and no host operation before the region writes any of the five. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Pipeline.RDat.FramePost.arr_in h c 0 rfl).trans (V_main_arg0 m c),
      (Pipeline.RDat.FramePost.arr_in h c 4 rfl).trans (V_main_arg1 m c),
      (Pipeline.RDat.FramePost.arr_in h c 1 rfl).trans (V_main_arg2 m c),
      (Pipeline.RDat.FramePost.arr_in h c 2 rfl).trans (V_main_arg3 m c),
      ((h c).2 main_arg4 (Pipeline.mem_restRefs_of main_arg4 (by decide) (by decide))).trans (V_main_arg4 m c)⟩) (run_main m ρ)

end Cert.Kernel.Gcn

end
-- ==== Proof.Body.lean ====
/-
  The kernel body as a Hoare triple, at any float instance.

  The body runs at every grid point i (32 points, 320 rows each). At the first point it fills two resident buffers:
  the support S = x · W (all 10000 rows) and the first 10000 rows of a 10240-row buffer with x · Wl + b. At every
  point it stores, into the output block, adjBlock · S + (rows [320·i, 320·i + 320) of the tall buffer).
  Two triples: the first point (both resident buffers written, then read) and a later point (both only read). Each
  names what every buffer holds afterwards as a function of what it held before.
-/
import proofs.«178778_g28991029248529_cont_9to1_2130_11_alg».proof.Proof.Gen.KernelIdeal.Frame
import proofs.«178778_g28991029248529_cont_9to1_2130_11_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.ValueIdx
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch: is this the first grid point? -/

/-- The body's one condition, as its scalar chain computes it from the grid coordinate. -/
abbrev firstPoint (i : grid0.Coords) : Prop :=
  (Scalar.cmpi .ne (Scalar.extui (Scalar.cmpi .eq (BitVec.ofNat 32 (i 0).val) 0#32)) 0#32) = 1#1

/-- It holds at point 0 and at no other of the 32 points. -/
theorem firstPoint_iff : ∀ t : Fin cfg0.N, firstPoint (grid0.coords t) ↔ t.val = 0 :=
  (by decide +kernel : ∀ t : Fin grid0.N, firstPoint (grid0.coords t) ↔ t.val = 0)

/-! ## What the buffers hold afterwards -/

/-- The 320 rows of the tall buffer that the body adds at coordinates `i`: rows [320·i, 320·i + 320). -/
abbrev rowsRect (i : grid0.Coords) : Rect S10240x128 :=
  Rect.unit (s := S10240x128) (k0_off1 i) S320x128.size (k0_off1_inb i)

/-- The tall buffer after the first point: rows below 10000 hold `x · Wl + b`, the last 240 rows what they held. -/
def tallAfter (x1 : Vec F S10000x128 .f32) (x3 : Vec F S128x128 .f32) (x4 : Vec F S1x128 .f32) (y8 : Vec F S10240x128 .f32) :
    Vec F S10240x128 .f32 :=
  fun y => if h : (y 0).val < 10000 then k0_pay2 x1 x3 x4 (ix2 ⟨(y 0).val, h⟩ ⟨(y 1).val, (y 1).isLt⟩) else y8 y

/-- The output block: the adjacency block times the support, plus the tall buffer's rows for this point. -/
def outBlock (i : grid0.Coords) (x5 : Vec F S320x10000 .f32) (s : Vec F S10000x128 .f32) (tall : Vec F S10240x128 .f32) :
    Vec F S320x128 .f32 :=
  k0_pay3 x5 s (View.ld tall (rowsRect i))

theorem zeros2 : (![0, 0] : Fin 2 → Nat) = fun _ => 0 := funext fun a => by fin_cases a <;> rfl

/-! ## Whole-buffer loads and stores, read back -/

/-- One store through the whole rank-2 buffer leaves its payload. -/
theorem read_whole_store {d : Fin 2 → ℕ} (v : View sig .tc .vmem (⟨2, d⟩ : Shape) .f32) (f : v.ty.Contents (Elt F))
    (inb : ∀ a, (![0, 0] : Fin 2 → ℕ) a + (⟨2, d⟩ : Shape).size a ≤ (⟨2, d⟩ : Shape).size a) (w : Vec F (⟨2, d⟩ : Shape) .f32) :
    v.read (Elt F) (v.writes (Elt F) f
      [(⟨Rect.unit (s := (⟨2, d⟩ : Shape)) ![0, 0] (⟨2, d⟩ : Shape).size inb, w⟩ : View.Piece (Elt F) (⟨2, d⟩ : Shape) .f32)]) = w := by
  funext y
  exact View.read_writes_cons_unit_of_mem v f inb w [] y y zeros2 (fun a => (Nat.zero_add _).symm)

/-- A load through the whole rank-2 buffer reads its contents. -/
theorem readAt_whole {d : Fin 2 → ℕ} (mr : Memref sig .tc .vmem (⟨2, d⟩ : Shape) .f32) (h : mr.IsWhole)
    (inb : ∀ a, (![0, 0] : Fin 2 → ℕ) a + (⟨2, d⟩ : Shape).size a ≤ (⟨2, d⟩ : Shape).size a) (x : Vec F (⟨2, d⟩ : Shape) .f32) :
    View.readAt (Elt F) mr.view (Rect.unit (s := (⟨2, d⟩ : Shape)) ![0, 0] (⟨2, d⟩ : Shape).size inb).toLoadRect (h.unread x) = x := by
  rw [View.readAt_eq_ld, h.read_unread]
  exact View.ld_unit_zero (S := (⟨2, d⟩ : Shape)) zeros2 inb x

/-- A load of the rows a point adds, of a buffer whose contents read `y`. -/
theorem readAt_rows (mr : Memref sig .tc .vmem S10240x128 .f32) (f : mr.view.ty.Contents (Elt F)) (y : Vec F S10240x128 .f32)
    (hf : mr.view.read (Elt F) f = y) (i : grid0.Coords) :
    View.readAt (Elt F) mr.view (rowsRect i).toLoadRect f = View.ld y (rowsRect i) := by
  rw [View.readAt_eq_ld, hf]

/-! ## A later point -/

set_option maxHeartbeats 1000000 in
/-- At a point that is not the first the body only reads the two resident buffers: every buffer but the output's
    keeps its contents, and the output's ends at `outBlock`. -/
theorem run_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S320x10000 .f32) (harg5 : arg5.IsWhole) (arg6 : Memref sig .tc .vmem S320x128 .f32) (harg6 : arg6.IsWhole)
    (arg7 : Memref sig .tc .vmem S10000x128 .f32) (harg7 : arg7.IsWhole) (arg8 : Memref sig .tc .vmem S10240x128 .f32) (harg8 : arg8.IsWhole)
    (hc : ¬firstPoint i)
    (x1 : Vec F S10000x128 .f32) (x2 x3 : Vec F S128x128 .f32) (x4 : Vec F S1x128 .f32) (x5 : Vec F S320x10000 .f32) (x6 : Vec F S320x128 .f32)
    (y7 : Vec F S10000x128 .f32) (y8 : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare y8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outBlock i x5 y7 y8)
            ∗ owns (c : Thread nD τ) arg7 fullShare y7 ∗ owns (c : Thread nD τ) arg8 fullShare y8) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_whole_store, readAt_whole arg5 harg5, readAt_whole arg7 harg7]
    exact congrArg (k0_pay3 x5 y7) (readAt_rows arg8 _ y8 (harg8.read_unread _) i)
  isplitl [H7]
  · iexists _; isplitr; · ipureintro; exact harg7.read_unread _
    iexact H7
  · iexists _; isplitr; · ipureintro; exact harg8.read_unread _
    iexact H8

/-! ## The first point -/

/-- What one store of the rows below 10000 leaves of the tall buffer, read back. -/
theorem read_tall_store (v : View sig .tc .vmem S10240x128 .f32) (f : v.ty.Contents (Elt F))
    (w : Vec F S10000x128 .f32) (y8 : Vec F S10240x128 .f32) (hf : v.read (Elt F) f = y8)
    (x1 : Vec F S10000x128 .f32) (x3 : Vec F S128x128 .f32) (x4 : Vec F S1x128 .f32) (hw : w = k0_pay2 x1 x3 x4) :
    v.read (Elt F) (v.writes (Elt F) f
      [(⟨Rect.unit (s := S10240x128) ![0, 0] S10000x128.size inb_S10240x128_S10000x128_0_0, w⟩ : View.Piece (Elt F) S10240x128 .f32)])
      = tallAfter x1 x3 x4 y8 := by
  subst hw
  funext y
  unfold tallAfter
  by_cases h : (y 0).val < 10000
  · rw [dif_pos h]
    exact View.read_writes_cons_rows_of_mem (o := 0) v f inb_S10240x128_S10000x128_0_0 _ [] y
      (ix2 ⟨(y 0).val, h⟩ ⟨(y 1).val, (y 1).isLt⟩) rfl (Nat.zero_add _).symm rfl
  · rw [dif_neg h,
      View.read_writes_cons_rows_of_not_mem (o := 0) (W := 10000) v f inb_S10240x128_S10000x128_0_0 _ [] y rfl rfl
        (Or.inr (by omega)),
      View.writes_nil, hf]

set_option maxHeartbeats 2000000 in
/-- At the first point the body fills the support buffer with `x · W` and the tall buffer's first 10000 rows with
    `x · Wl + b`, then computes the output block from what it has just stored. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S320x10000 .f32) (harg5 : arg5.IsWhole) (arg6 : Memref sig .tc .vmem S320x128 .f32) (harg6 : arg6.IsWhole)
    (arg7 : Memref sig .tc .vmem S10000x128 .f32) (harg7 : arg7.IsWhole) (arg8 : Memref sig .tc .vmem S10240x128 .f32) (harg8 : arg8.IsWhole)
    (hc : firstPoint i)
    (x1 : Vec F S10000x128 .f32) (x2 x3 : Vec F S128x128 .f32) (x4 : Vec F S1x128 .f32) (x5 : Vec F S320x10000 .f32) (x6 : Vec F S320x128 .f32)
    (y7 : Vec F S10000x128 .f32) (y8 : Vec F S10240x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare y8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outBlock i x5 (k0_pay1 x1 x2) (tallAfter x1 x3 x4 y8))
            ∗ owns (c : Thread nD τ) arg7 fullShare (k0_pay1 x1 x2) ∗ owns (c : Thread nD τ) arg8 fullShare (tallAfter x1 x3 x4 y8)) -∗ K ⟨⟩))
      ⊢ wp frame (wpE (defs₀ (F := F)) Variants.none c none) E
          (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc)
  sl_step
  iapply Hk
  unfold run_first.sl.v4 run_first.sl.H7_1 run_first.sl.H8_1
  rw [readAt_whole arg1 harg1, readAt_whole arg2 harg2, readAt_whole arg3 harg3, readAt_whole arg4 harg4, readAt_whole arg5 harg5]
  -- the tall buffer after its one store
  have h8 := read_tall_store (F := F) arg8.view (harg8.unread y8) (k0_pay2 x1 x3 x4) y8 (harg8.read_unread _) x1 x3 x4 rfl
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [read_whole_store, View.readCov_unit_zero (S := S10000x128) arg7.view zeros2]
    exact congrArg (k0_pay3 x5 (k0_pay1 x1 x2)) (readAt_rows arg8 _ _ h8 i)
  isplitl [H7]
  · iexists _; isplitr
    swap; · iexact H7
    ipureintro
    exact read_whole_store _ _ _ _
  · iexists _; isplitr
    swap; · iexact H8
    ipureintro
    exact h8

end Cert.KernelIdeal.Gcn

end
-- ==== Proof.Spec.lean ====
/-
  The graph convolution as ONE function of the argument arrays, over the extended reals.

  With x : [10000,128] the node features, adj : [10000,10000] the adjacency, W and Wl : [128,128] the two weight
  matrices and b : [128] the bias:
    support(k, c)  = Σ_j x(k, j) · W(j, c)
    selfTerm(r, c) = Σ_j x(r, j) · Wl(j, c) + b(c)
    conv(r, c)     = Σ_k adj(r, k) · support(k, c) + selfTerm(r, c).
  The kernel adds the bias to the self-loop term first; the reference adds it last. Addition of extended reals is
  associative, so the two groupings agree everywhere (no finiteness is needed).
-/
import Idealize.ShloMosaic.PureOps.Ideal
import Idealize.ShloMosaic.Lib.ValueIdx

noncomputable section

open scoped BigOperators

namespace Cert.Gcn

open Idealize.ShloMosaic Idealize.ShloMosaic.ValueIdx

/-- The shapes of the arguments, spelled out. -/
abbrev SNodes : Shape := ⟨2, ![10000, 128]⟩
abbrev SAdj : Shape := ⟨2, ![10000, 10000]⟩
abbrev SWeight : Shape := ⟨2, ![128, 128]⟩
abbrev SBias : Shape := ⟨1, ![128]⟩

/-- Row `k`, column `c` of `x · W`. -/
def support (x : SNodes.Idx → EReal) (W : SWeight.Idx → EReal) (k : Fin 10000) (c : Fin 128) : EReal :=
  ∑ j : Fin 128, x (ix2 k j) * W (ix2 j c)

/-- Row `r`, column `c` of `x · Wl + b` (the bias spread over the rows). -/
def selfTerm (x : SNodes.Idx → EReal) (Wl : SWeight.Idx → EReal) (b : SBias.Idx → EReal) (r : Fin 10000) (c : Fin 128) : EReal :=
  (∑ j : Fin 128, x (ix2 r j) * Wl (ix2 j c)) + b (ix1 c)

/-- The whole result: `adj · (x · W) + (x · Wl + b)`, index by index. -/
def conv (x : SNodes.Idx → EReal) (adj : SAdj.Idx → EReal) (W Wl : SWeight.Idx → EReal) (b : SBias.Idx → EReal) :
    SNodes.Idx → EReal :=
  fun i => (∑ k : Fin 10000, adj (ix2 (i 0) k) * support x W k (i 1)) + selfTerm x Wl b (i 0) (i 1)

/-- The reference's grouping, `(adj · (x · W) + x · Wl) + b`, is the same number. -/
theorem conv_eq_bias_last (x : SNodes.Idx → EReal) (adj : SAdj.Idx → EReal) (W Wl : SWeight.Idx → EReal) (b : SBias.Idx → EReal)
    (i : SNodes.Idx) :
    ((∑ k : Fin 10000, adj (ix2 (i 0) k) * support x W k (i 1)) + (∑ j : Fin 128, x (ix2 (i 0) j) * Wl (ix2 j (i 1)))) + b (ix1 (i 1))
      = conv x adj W Wl b i := by
  unfold conv selfTerm
  exact add_assoc _ _ _

end Cert.Gcn

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.PayAt.lean ====
/-
  The kernel's three vector payloads, read at an index, over the extended reals.

  * the first is the product x · W: at (k, c) it is Σ_j x(k, j) · W(j, c), the specification's support;
  * the second is the product x · Wl with the one-row bias spread over the rows added: at (r, c) it is
    Σ_j x(r, j) · Wl(j, c) + b(0, c);
  * the third is a block of rows of the adjacency times the stored support, with the stored self-loop block added:
    at (p, c) it is Σ_k A(p, k) · S(k, c) + L(p, c).
  Each payload is a matrix product into the zero accumulator; the shape casts in it are casts of a shape to itself,
  which change nothing; a sum of vectors at an index is the sum of the entries.
-/
import proofs.«178778_g28991029248529_cont_9to1_2130_11_alg».proof.Proof.Gen.KernelIdeal.Skeleton
import proofs.«178778_g28991029248529_cont_9to1_2130_11_alg».proof.Proof.Spec
import proofs.«178778_g28991029248529_cont_9to1_2130_11_alg».proof.Proof.LibRowOps

noncomputable section

open scoped BigOperators

namespace Cert.KernelIdeal.Gcn

open Cert.KernelIdeal Cert.KernelIdeal.Gen Idealize.ShloMosaic Idealize.ShloMosaic.ValueIdx

/-- The first payload at (k, c): row k, column c of x · W. -/
theorem pay1_apply (x : Vec Ideal S10000x128 .f32) (W : Vec Ideal S128x128 .f32) (k : Fin 10000) (c : Fin 128) :
    k0_pay1 (F := Ideal) x W (ix2 k c) = Cert.Gcn.support x W k c := by
  unfold k0_pay1
  show shapeCast S10000x128 _ _ (ix2 k c) = _
  rw [shapeCast_self]
  exact Cert.RowOps.matmul_apply _ none x W k c

/-- The second payload at (r, c): row r, column c of x · Wl, plus the bias row's entry c. -/
theorem pay2_apply (x : Vec Ideal S10000x128 .f32) (Wl : Vec Ideal S128x128 .f32) (b : Vec Ideal S1x128 .f32) (r : Fin 10000) (c : Fin 128) :
    k0_pay2 (F := Ideal) x Wl b (ix2 r c) = (∑ j : Fin 128, x (ix2 r j) * Wl (ix2 j c)) + b (ix2 (0 : Fin 1) c) := by
  unfold k0_pay2
  show shapeCast S10000x128 _ _ (ix2 r c) = _
  rw [shapeCast_self]
  show _ + _ = _ + _
  congr 1
  · exact Cert.RowOps.matmul_apply _ none x Wl r c
  · exact Cert.RowOps.rowParam_spread_apply b _ _ r c

/-- The third payload at (p, c): row p of the adjacency block against column c of the support, plus the self-loop block's entry. -/
theorem pay3_apply (A : Vec Ideal S320x10000 .f32) (S : Vec Ideal S10000x128 .f32) (L : Vec Ideal S320x128 .f32) (p : Fin 320) (c : Fin 128) :
    k0_pay3 (F := Ideal) A S L (ix2 p c) = (∑ k : Fin 10000, A (ix2 p k) * S (ix2 k c)) + L (ix2 p c) := by
  unfold k0_pay3
  show _ + _ = _ + _
  congr 1
  exact Cert.RowOps.matmul_apply _ none A S p c

end Cert.KernelIdeal.Gcn

end
-- ==== Proof.Data.lean ====
/-
  The pipeline's proof data for the idealized kernel, and what the body finds in each buffer.

  The grid has 32 points; point t handles rows [320·t, 320·t + 320) of the adjacency and of the result. The last
  block overhangs the arrays by 240 rows: the transfer moves the 80 rows inside and the rest of the staging buffer
  holds words nothing names. Between points the kernel keeps two resident buffers: the support x · W, and a
  10240-row buffer whose first 10000 rows hold x · Wl + b (its last 240 rows are never written).
  The result array is named outright: block t of the specification's graph convolution.
-/
import proofs.«178778_g28991029248529_cont_9to1_2130_11_alg».proof.Proof.Body
import proofs.«178778_g28991029248529_cont_9to1_2130_11_alg».proof.Proof.Spec
import proofs.«178778_g28991029248529_cont_9to1_2130_11_alg».proof.Proof.PayAt

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays and the blocks, at their literal types -/

/-- The first grid point. -/
abbrev t₀ : Fin cfg0.N := ⟨0, Nat.lt_of_lt_of_eq (by decide : 0 < 32) N_0.symm⟩

/-- The argument arrays as the region finds them. -/
abbrev xArr (c : Dev nD) : Vec Ideal S10000x128 .f32 := V m c main_arg0
abbrev adjArr (c : Dev nD) : Vec Ideal S10000x10000 .f32 := V m c main_arg1
abbrev wArr (c : Dev nD) : Vec Ideal S128x128 .f32 := V m c main_arg2
abbrev wlArr (c : Dev nD) : Vec Ideal S128x128 .f32 := V m c main_arg3
abbrev bArr (c : Dev nD) : Vec Ideal S128 .f32 := V m c main_arg4
/-- The bias as the one-row array the kernel is handed. -/
abbrev bRowArr (c : Dev nD) : Vec Ideal S1x128 .f32 := V m c main_v0

/-- The four resident inputs' blocks at a point (each block is its whole array). -/
abbrev xBlk (c : Dev nD) (t : Fin cfg0.N) : Vec Ideal S10000x128 .f32 := iblk m c 0 t
abbrev wBlk (c : Dev nD) (t : Fin cfg0.N) : Vec Ideal S128x128 .f32 := iblk m c 1 t
abbrev wlBlk (c : Dev nD) (t : Fin cfg0.N) : Vec Ideal S128x128 .f32 := iblk m c 2 t
abbrev bBlk (c : Dev nD) (t : Fin cfg0.N) : Vec Ideal S1x128 .f32 := iblk m c 3 t

/-- The result the kernel is shown to compute: the graph convolution of the argument arrays. -/
def target (c : Dev nD) : Vec Ideal S10000x128 .f32 :=
  Cert.Gcn.conv (xArr m c) (adjArr m c) (wArr m c) (wlArr m c) (bArr m c)

/-! ## The resident buffers after the first point -/

/-- The support buffer: x · W, from the blocks the first point finds. -/
def supportBuf (c : Dev nD) : Vec Ideal S10000x128 .f32 := k0_pay1 (F := Ideal) (xBlk m c t₀) (wBlk m c t₀)

/-- The rows x · Wl + b the first point stores into the tall buffer. -/
def selfRows (c : Dev nD) : Vec Ideal S10000x128 .f32 := k0_pay2 (F := Ideal) (xBlk m c t₀) (wlBlk m c t₀) (bBlk m c t₀)

/-- What is known of the tall buffer after the first point: its rows below 10000 are `selfRows`. -/
def TallOk (c : Dev nD) (z : Vec Ideal S10240x128 .f32) : Prop :=
  ∀ (y : S10240x128.Idx) (h : (y 0).val < 10000), z y = selfRows m c (ix2 ⟨(y 0).val, h⟩ ⟨(y 1).val, (y 1).isLt⟩)

theorem tallOk_tallAfter (c : Dev nD) (y8 : Vec Ideal S10240x128 .f32) :
    TallOk m c (tallAfter (F := Ideal) (xBlk m c t₀) (wlBlk m c t₀) (bBlk m c t₀) y8) := fun y h => by
  unfold tallAfter; rw [dif_pos h]; rfl

/-- The two resident buffers, as memrefs. -/
abbrev scA : Memref sig .tc .vmem S10000x128 .f32 := Memref.whole cc0_scratch0
abbrev scB : Memref sig .tc .vmem S10240x128 .f32 := Memref.whole cc0_scratch1

/-- The region's invariant at entry: both resident buffers at anything, the generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- The invariant before position `n`: at entry the region's; afterwards the support buffer at x · W, the tall buffer
    at contents whose first 10000 rows are x · Wl + b, and the generator register at some state. -/
def PhiT (c : Dev nD) : ℕ → sProp 𝕄
  | 0 => Pipeline.ΦA spec0 c
  | _ + 1 => iprop(iprop(owns (c : Thread nD τ) scA fullShare (supportBuf m c)
        ∗ (∃ z, ⌜TallOk m c z⌝ ∗ owns (c : Thread nD τ) scB fullShare z)) ∗ (∃ r, prngReg c r))

theorem PhiT_pos (c : Dev nD) (n : ℕ) (hn : n ≠ 0) :
    PhiT m c n = iprop(iprop(owns (c : Thread nD τ) scA fullShare (supportBuf m c)
        ∗ (∃ z, ⌜TallOk m c z⌝ ∗ owns (c : Thread nD τ) scB fullShare z)) ∗ (∃ r, prngReg c r)) := by
  cases n with
  | zero => exact absurd rfl hn
  | succ n => rfl

/-! ## The proof data -/

/-- After the body at point `t`: the four resident inputs' buffers at their blocks; the adjacency's buffer at its
    block's part inside the array (filled out with zeros where nothing is named); the result's at block `t` of
    `target` (filled out likewise). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) (fun _ => Scalar.ofBits (F := Ideal) .f32 0#32) (iblk m c 4 t)
    | ⟨5, _⟩ => win0_5.fill (grid0.coords t) (fun _ => Scalar.ofBits (F := Ideal) .f32 0#32) ((win0_5.blk t).view.read (Elt Ideal) (target m c))
  Φ t := PhiT m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = win0_4.fill (grid0.coords t) (fun _ => Scalar.ofBits (F := Ideal) .f32 0#32) (iblk m c 4 t) := by dsimp only [dats]
theorem after5 (c : Dev nD) (t : Fin cfg0.N) :
    (dats m 0 c).after 5 t
      = win0_5.fill (grid0.coords t) (fun _ => Scalar.ofBits (F := Ideal) .f32 0#32) ((win0_5.blk t).view.read (Elt Ideal) (target m c)) := by
  dsimp only [dats]

/-! ## What the body finds -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The adjacency's buffer is fetched at every point: the block's part inside the array, anything elsewhere. -/
theorem before4 (c : Dev nD) (t : Fin cfg0.N) (d) :
    (dats m 0 c).before 4 t d = win0_4.fill (grid0.coords t) d (iblk m c 4 t) := by
  unfold Dat.before; rw [if_pos (fetch0_4 t)]
  unfold Dat.fetched Dat.blockOf iblk; rw [A_eq]

/-- The result's window is never fetched, -/
theorem fetch0_5 : ∀ t : Fin cfg0.N, (cfg0.win 5).fetch t = false :=
  (by decide +kernel : ∀ t : Fin grid0.N, win0_5.fetch t = false)

/-- and is written back at every point: its buffer arrives at contents nothing names. -/
theorem before5 (c : Dev nD) (t : Fin cfg0.N) (d) : (dats m 0 c).before 5 t d = d := by
  unfold Dat.before
  rw [if_neg (by rw [fetch0_5 t]; exact Bool.false_ne_true)]
  by_cases h0 : t.val = 0
  · rw [if_pos h0]
  · rw [if_neg h0]; exact if_pos (flush0_5 _)

end Cert.KernelIdeal.Gcn

end
-- ==== Proof.Rows.lean ====
/-
  The rows the body computes are the specification's rows.

  At grid point t the body's output block is  adjBlock · S + (rows [320·t, 320·t + 320) of the tall buffer), a 320-row
  block. Of those rows only the ones inside the array are kept (all 320, but 80 at the last point). Row p of the
  block is row r = 320·t + p of the result:
    Σ_k adj(r, k) · S(k, c) + T(r, c),
  where S = x · W is the support and T(r, ·) = x(r, ·) · Wl + b for r < 10000. A matrix product is computed row by
  row, so the rows of the adjacency block past the array's end (which hold words nothing names) reach only rows of
  the output block that are not kept.
-/
import proofs.«178778_g28991029248529_cont_9to1_2130_11_alg».proof.Proof.Data
import Idealize.ShloMosaic.Lib.StableHlo.Run

set_option maxRecDepth 16384

noncomputable section

open scoped BigOperators

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-! ## The index maps and the cuts, decided over the 32 points -/

/-- The grid coordinate is the point; the four resident windows stay at block (0, 0); the adjacency's and the
    result's windows are at block (t, 0). -/
theorem grid_facts : ∀ t : Fin cfg0.N,
    (grid0.coords t 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The rows a transfer moves at point t: the same for the adjacency's window and the result's, at most 320, never
    past row 10000, and all 320 unless the block reaches the array's end; every column is moved. -/
theorem clip_facts : ∀ t : Fin cfg0.N,
    win0_4.xsize (grid0.coords t) (0 : Fin 2) = win0_5.xsize (grid0.coords t) (0 : Fin 2)
    ∧ win0_4.xsize (grid0.coords t) (1 : Fin 2) = 10000
    ∧ win0_5.xsize (grid0.coords t) (1 : Fin 2) = 128
    ∧ win0_5.xsize (grid0.coords t) (0 : Fin 2) ≤ 320
    ∧ t.val * 320 + win0_5.xsize (grid0.coords t) (0 : Fin 2) ≤ 10000
    ∧ (win0_5.xsize (grid0.coords t) (0 : Fin 2) = 320 ∨ t.val * 320 + win0_5.xsize (grid0.coords t) (0 : Fin 2) = 10000) :=
  (by decide +kernel : ∀ t : Fin grid0.N, _)

/-! ## The resident inputs' blocks are their arrays -/

theorem xBlk_eq (c : Dev nD) (t : Fin cfg0.N) : xBlk m c t = xArr m c := by
  obtain ⟨-, e0, e1, -⟩ := grid_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem wBlk_eq (c : Dev nD) (t : Fin cfg0.N) : wBlk m c t = wArr m c := by
  obtain ⟨-, -, -, e0, e1, -⟩ := grid_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem wlBlk_eq (c : Dev nD) (t : Fin cfg0.N) : wlBlk m c t = wlArr m c := by
  obtain ⟨-, -, -, -, -, e0, e1, -⟩ := grid_facts t
  funext y
  show V m c main_arg3 (((cfg0.win 2).blk t).view.emb y) = V m c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem bBlk_eq (c : Dev nD) (t : Fin cfg0.N) : bBlk m c t = bRowArr m c := by
  obtain ⟨-, -, -, -, -, -, -, e0, e1, -⟩ := grid_facts t
  funext y
  show V m c main_v0 (((cfg0.win 3).blk t).view.emb y) = V m c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## The bias row is the bias -/

/-- The one-row array the kernel is handed is the bias array reshaped. -/
theorem bRowArr_eq (c : Dev nD) :
    bRowArr m c = shapeCast S1x128 (bArr m c) shapeCasts_S128_S1x128 := by
  show (V m c main_v0 : Vec Ideal S1x128 .f32) = shapeCast S1x128 (V m c main_arg4 : Vec Ideal S128 .f32) shapeCasts_S128_S1x128
  rw [V_main_arg4]
  dsimp only [V, hostOps0]
  after_results
  rfl

theorem bRowArr_apply (c : Dev nD) (q : Fin 128) : bRowArr m c (ix2 (0 : Fin 1) q) = bArr m c (ix1 q) := by
  rw [bRowArr_eq]
  exact shapeCast_apply _ _ _ _ (by
    rw [Shape.rowMajor_val_two, Shape.rowMajor_val_one]
    show q.val = (0 : Fin 1).val * 128 + q.val
    simp)

/-! ## The kept rows of the output block -/

/-- The tall buffer's row r < 10000 (stored at the first point) is the self-loop term of row r. -/
theorem selfRows_apply (c : Dev nD) (r : Fin 10000) (q : Fin 128) :
    selfRows m c (ix2 r q) = Cert.Gcn.selfTerm (xArr m c) (wlArr m c) (bArr m c) r q := by
  unfold selfRows Cert.Gcn.selfTerm
  rw [pay2_apply, xBlk_eq, wlBlk_eq, bBlk_eq, bRowArr_apply]

/-- The support buffer's entry (k, q) is the specification's support. -/
theorem supportBuf_apply (c : Dev nD) (k : Fin 10000) (q : Fin 128) :
    supportBuf m c (ix2 k q) = Cert.Gcn.support (xArr m c) (wArr m c) k q := by
  unfold supportBuf
  rw [pay1_apply, xBlk_eq, wBlk_eq]

/-- THE KEPT ROWS. Whatever the adjacency's staging buffer holds past the array's end (`d4`), and whatever the tall
    buffer holds in its last 240 rows, the rows of the body's output block that the write-back moves are block `t` of
    the graph convolution. -/
theorem out_rows (c : Dev nD) (t : Fin cfg0.N) (d4 : S320x10000.Idx → Elt Ideal .f32) (z : Vec Ideal S10240x128 .f32)
    (hz : TallOk m c z) :
    win0_5.cut (grid0.coords t)
        (outBlock (F := Ideal) (grid0.coords t) (win0_4.fill (grid0.coords t) d4 (iblk m c 4 t)) (supportBuf m c) z)
      = (win0_5.blk t).view.read (Elt Ideal) (target m c) := by
  obtain ⟨g0, -, -, -, -, -, -, -, -, i40, i41, i50, i51⟩ := grid_facts t
  obtain ⟨x45, x41, x51, x5le, x5in, -⟩ := clip_facts t
  funext j
  have hj0 : (j 0).val < win0_5.xsize (grid0.coords t) (0 : Fin 2) := (j 0).isLt
  have hj1 : (j 1).val < win0_5.xsize (grid0.coords t) (1 : Fin 2) := (j 1).isLt
  -- row p of the block is row r of the array
  obtain ⟨p, hp⟩ : ∃ p : Fin 320, p.val = (j 0).val := ⟨⟨(j 0).val, by omega⟩, rfl⟩
  obtain ⟨q, hq⟩ : ∃ q : Fin 128, q.val = (j 1).val := ⟨⟨(j 1).val, by omega⟩, rfl⟩
  obtain ⟨r, hr⟩ : ∃ r : Fin 10000, r.val = t.val * 320 + (j 0).val := ⟨⟨t.val * 320 + (j 0).val, by omega⟩, rfl⟩
  have hL : win0_5.xinj (grid0.coords t) j = ix2 p q := funext fun a => Fin.ext (by
    match a with
    | ⟨0, _⟩ => exact hp.symm
    | ⟨1, _⟩ => exact hq.symm)
  have hR : (win0_5.blk t).view.emb j = ix2 r q := funext fun a => Fin.ext (by
    match a with
    | ⟨0, _⟩ => show win0_5.index t (0 : Fin 2) * 320 + 1 * (j 0).val = r.val; omega
    | ⟨1, _⟩ => show win0_5.index t (1 : Fin 2) * 128 + 1 * (j 1).val = q.val; omega)
  show outBlock (F := Ideal) (grid0.coords t) _ (supportBuf m c) z (win0_5.xinj (grid0.coords t) j)
      = target m c ((win0_5.blk t).view.emb j)
  rw [hL, hR]
  unfold outBlock
  rw [pay3_apply]
  show _ = (∑ k : Fin 10000, adjArr m c (ix2 r k) * Cert.Gcn.support (xArr m c) (wArr m c) k q)
      + Cert.Gcn.selfTerm (xArr m c) (wlArr m c) (bArr m c) r q
  refine congrArg₂ (· + ·) ?_ ?_
  · -- the product: each adjacency entry of a kept row lies inside the array
    refine Finset.sum_congr rfl fun k _ => ?_
    refine congrArg₂ (· * ·) ?_ (supportBuf_apply m c k q)
    · have hm : win0_4.moved (grid0.coords t) (ix2 p k) = true := (win0_4.moved_iff _ _).mpr fun a => by
        match a with
        | ⟨0, _⟩ => show p.val < win0_4.xsize (grid0.coords t) (0 : Fin 2); omega
        | ⟨1, _⟩ => show k.val < win0_4.xsize (grid0.coords t) (1 : Fin 2); omega
      unfold Window.fill
      rw [dif_pos hm]
      show V m c main_arg1 (((cfg0.win 4).blk t).view.emb _) = V m c main_arg1 (ix2 r k)
      refine congrArg _ (funext fun a => Fin.ext ?_)
      match a with
      | ⟨0, _⟩ => show win0_4.index t (0 : Fin 2) * 320 + 1 * p.val = r.val; omega
      | ⟨1, _⟩ => show win0_4.index t (1 : Fin 2) * 10000 + 1 * k.val = k.val; omega
  · -- the added rows: row p of the rows read is row r of the tall buffer
    have hoff : k0_off1 (grid0.coords t) = ![320 * (grid0.coords t 0).val, 0] := k0_off1_eq _
    have key : ∀ (y : S10240x128.Idx), (y 0).val = r.val → (y 1).val = q.val →
        z y = Cert.Gcn.selfTerm (xArr m c) (wlArr m c) (bArr m c) r q := by
      intro y h0 h1
      have hlt : (y 0).val < 10000 := by omega
      rw [hz y hlt]
      have e0 : (⟨(y 0).val, hlt⟩ : Fin 10000) = r := Fin.ext h0
      have e1 : (⟨(y 1).val, (y 1).isLt⟩ : Fin 128) = q := Fin.ext h1
      rw [e0, e1]
      exact selfRows_apply m c r q
    show z ((rowsRect (grid0.coords t)).idx (ix2 p q)) = _
    refine key _ ?_ ?_
    · show k0_off1 (grid0.coords t) (0 : Fin 2) + 1 * p.val = r.val
      rw [hoff]
      show 320 * (grid0.coords t 0).val + 1 * p.val = r.val
      omega
    · show k0_off1 (grid0.coords t) (1 : Fin 2) + 1 * q.val = q.val
      rw [hoff]
      show 0 + 1 * q.val = q.val
      omega

end Cert.KernelIdeal.Gcn

end
-- ==== Proof.Oblig.lean ====
/-
  The body obligation of the idealized kernel.

  At each grid point the pipeline hands the body the four resident inputs' buffers at their blocks, the adjacency's
  buffer at its fetched block (its rows past the array's end at anything), the result's buffer at anything, and the
  two resident buffers as the invariant says: at anything before the first point, afterwards the support x · W and
  contents whose first 10000 rows are x · Wl + b. The body leaves the inputs' buffers as they were and the resident
  buffers as the next point's invariant says; of the result's buffer the obligation states only the rows the
  write-back moves, and those are block t of the graph convolution (Rows.lean).
-/
import proofs.«178778_g28991029248529_cont_9to1_2130_11_alg».proof.Proof.Rows

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem PhiT_zero (c : Dev nD) : PhiT m c 0 = Pipeline.ΦA spec0 c := rfl
theorem PhiT_succ (c : Dev nD) (n : ℕ) :
    PhiT m c (n + 1) = iprop(iprop(owns (c : Thread nD τ) scA fullShare (supportBuf m c)
        ∗ (∃ z, ⌜TallOk m c z⌝ ∗ owns (c : Thread nD τ) scB fullShare z)) ∗ (∃ r, prngReg c r)) := rfl

/-- What the write-back moves of the output block the body leaves is block `t` of `target`: so the buffer is
    `after 5 t` on the moved part, which is all the obligation of a cut window states. -/
theorem out_leaves (c : Dev nD) (t : Fin cfg0.N) (d4 : S320x10000.Idx → Elt Ideal .f32) (z : Vec Ideal S10240x128 .f32)
    (hz : TallOk m c z) :
    (win0 5).fill (grid0.coords t)
        (outBlock (F := Ideal) (grid0.coords t) (win0_4.fill (grid0.coords t) d4 (iblk m c 4 t)) (supportBuf m c) z)
        ((win0 5).cut (grid0.coords t) ((dats m 0 c).after 5 t))
      = outBlock (F := Ideal) (grid0.coords t) (win0_4.fill (grid0.coords t) d4 (iblk m c 4 t)) (supportBuf m c) z := by
  show win0_5.fill (grid0.coords t) _ (win0_5.cut (grid0.coords t) ((dats m 0 c).after 5 t)) = _
  refine win0_5.fill_congr_cut _ ?_
  rw [after5, Window.cut_fill]
  exact out_rows m c t d4 z hz

/-- The adjacency's buffer keeps its fetched block on the rows the transfer moves. -/
theorem adj_leaves (c : Dev nD) (t : Fin cfg0.N) (d4 : S320x10000.Idx → Elt Ideal .f32) :
    (win0 4).fill (grid0.coords t) d4 ((win0 4).cut (grid0.coords t) ((dats m 0 c).after 4 t))
      = win0_4.fill (grid0.coords t) d4 (iblk m c 4 t) := by
  show win0_4.fill (grid0.coords t) d4 (win0_4.cut (grid0.coords t) ((dats m 0 c).after 4 t)) = _
  rw [after4, Window.cut_fill]

set_option maxHeartbeats 2000000 in
/-- THE BODY OBLIGATION. At the first point the region's invariant hands the body both resident buffers at anything
    and takes them back at x · W and at contents whose first 10000 rows are x · Wl + b; at a later point it hands
    them over so and takes them back unchanged. The four resident inputs' buffers keep their blocks, the adjacency's
    its fetched block, and the result's ends, on the rows the write-back moves, at block `t` of the graph convolution. -/
theorem body_obligation (c : Dev nD) :
    BodyObligationLoose (dats m 0 c) (defs₀ (F := Ideal)) Variants.none () Set.univ := fun t => by
  rw [bigSep_W0, bigSep_W0]
  simp only
  have e1 : (dats m 0 c).Φ t.castSucc = PhiT m c t.val := by dsimp only [dats]; simp only [Fin.coe_castSucc]
  have e2 : (dats m 0 c).Φ t.succ = PhiT m c (t.val + 1) := by dsimp only [dats]; simp only [Fin.val_succ]
  rw [e1, e2, PhiT_succ, show (dats m 0 c).owesAt () t.succ = (dats m 0 c).owesAt () t.castSucc from rfl,
    after0, after1, after2, after3]
  show _ ⊢ wp frame (wpE (defs₀ (F := Ideal)) Variants.none c none) Set.univ (bodyAt0 t) _
  unfold bodyAt0
  by_cases h0 : t.val = 0
  · -- the first point
    rw [h0, PhiT_zero, PhiA_eq]
    iintro ⟨⟨⟨⟨%y7, HS7⟩, ⟨%y8, HS8⟩⟩, Hg⟩, Ho, ⟨%d0, H0⟩, ⟨%d1, H1⟩, ⟨%d2, H2⟩, ⟨%d3, H3⟩, ⟨%d4, H4⟩, ⟨%d5, H5⟩⟩
    rw [before0 m c t d0, before1 m c t d1, before2 m c t d2, before3 m c t d3, before4 m c t d4, before5 m c t d5]
    iapply (run_first (F := Ideal) c (grid0.coords t) _ _ _ _ _ _ _ _ _ _ _ _ scA (Memref.isWhole_whole _) scB (Memref.isWhole_whole _)
      ((firstPoint_iff t).mpr h0) (xBlk m c t) (wBlk m c t) (wlBlk m c t) (bBlk m c t)
      (win0_4.fill (grid0.coords t) d4 (iblk m c 4 t)) d5 y7 y8 Set.univ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, HS7, HS8⟩
    have ht : t = t₀ := Fin.ext h0
    isplitl [HS7 HS8 Hg]
    · isplitl [HS7 HS8]
      · isplitl [HS7]
        · rw [show supportBuf m c = k0_pay1 (F := Ideal) (xBlk m c t₀) (wBlk m c t₀) from rfl, ← ht]
          iexact HS7
        · iexists (tallAfter (F := Ideal) (xBlk m c t) (wlBlk m c t) (bBlk m c t) y8)
          isplitr
          · ipureintro; rw [ht]; exact tallOk_tallAfter m c y8
          · iexact HS8
      · iexact Hg
    isplitl [Ho]; · iexact Ho
    isplitl [H0]; · iexact H0
    isplitl [H1]; · iexact H1
    isplitl [H2]; · iexact H2
    isplitl [H3]; · iexact H3
    isplitl [H4]
    · iexists d4
      rw [adj_leaves m c t d4]
      iexact H4
    · iexists (outBlock (F := Ideal) (grid0.coords t) (win0_4.fill (grid0.coords t) d4 (iblk m c 4 t)) (supportBuf m c)
        (tallAfter (F := Ideal) (xBlk m c t) (wlBlk m c t) (bBlk m c t) y8))
      rw [out_leaves m c t d4 (tallAfter (F := Ideal) (xBlk m c t) (wlBlk m c t) (bBlk m c t) y8) (by rw [ht]; exact tallOk_tallAfter m c y8)]
      rw [show supportBuf m c = k0_pay1 (F := Ideal) (xBlk m c t₀) (wBlk m c t₀) from rfl, ← ht]
      iexact H5
  · -- a later point
    rw [PhiT_pos m c t.val h0]
    iintro ⟨⟨⟨HS7, ⟨%z, %hz, HS8⟩⟩, Hg⟩, Ho, ⟨%d0, H0⟩, ⟨%d1, H1⟩, ⟨%d2, H2⟩, ⟨%d3, H3⟩, ⟨%d4, H4⟩, ⟨%d5, H5⟩⟩
    rw [before0 m c t d0, before1 m c t d1, before2 m c t d2, before3 m c t d3, before4 m c t d4, before5 m c t d5]
    iapply (run_later (F := Ideal) c (grid0.coords t) _ _ _ _ _ _ _ _ _ _ _ _ scA (Memref.isWhole_whole _) scB (Memref.isWhole_whole _)
      (fun hf => h0 ((firstPoint_iff t).mp hf)) (xBlk m c t) (wBlk m c t) (wlBlk m c t) (bBlk m c t)
      (win0_4.fill (grid0.coords t) d4 (iblk m c 4 t)) d5 (supportBuf m c) z Set.univ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, HS7, HS8⟩
    isplitl [HS7 HS8 Hg]
    · isplitl [HS7 HS8]
      · isplitl [HS7]
        · iexact HS7
        · iexists z
          isplitr
          · ipureintro; exact hz
          · iexact HS8
      · iexact Hg
    isplitl [Ho]; · iexact Ho
    isplitl [H0]; · iexact H0
    isplitl [H1]; · iexact H1
    isplitl [H2]; · iexact H2
    isplitl [H3]; · iexact H3
    isplitl [H4]
    · iexists d4
      rw [adj_leaves m c t d4]
      iexact H4
    · iexists (outBlock (F := Ideal) (grid0.coords t) (win0_4.fill (grid0.coords t) d4 (iblk m c 4 t)) (supportBuf m c) z)
      rw [out_leaves m c t d4 z hz]
      iexact H5

end Cert.KernelIdeal.Gcn

end
-- ==== Proof.Final.lean ====
/-
  The run of the idealized kernel and what its arrays hold afterwards.

  The 32 output blocks of 320 rows cover rows 0 .. 9999 (the last block's 80 kept rows are 9920 .. 9999), and each
  write-back writes block t of the graph convolution: so the result array ends holding the graph convolution, and the
  five argument arrays what they held.
-/
import proofs.«178778_g28991029248529_cont_9to1_2130_11_alg».proof.Proof.Oblig

set_option maxRecDepth 16384

noncomputable section

namespace Cert.KernelIdeal.Gcn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The invariant at the region's two ends -/

/-- What the launch hands the region is the invariant before the first point. -/
theorem hin (c : Dev nD) : Pipeline.ΦA spec0 c ⊢ (dats m 0 c).Φ 0 := by
  rw [show (dats m 0 c).Φ 0 = PhiT m c 0 from rfl, PhiT_zero]

/-- After the last point the resident buffers' named contents are forgotten. -/
theorem hout (c : Dev nD) : (dats m 0 c).Φ (Fin.last cfg0.N) ⊢ Pipeline.ΦA spec0 c := by
  have e : (dats m 0 c).Φ (Fin.last cfg0.N) = PhiT m c cfg0.N := by dsimp only [dats]; simp only [Fin.val_last]
  rw [e, PhiT_pos m c cfg0.N (by have : cfg0.N = 32 := N_0; omega), PhiA_eq]
  iintro ⟨⟨HS7, ⟨%z, %hz, HS8⟩⟩, Hg⟩
  isplitl [HS7 HS8]
  · isplitl [HS7]
    · iexists _; iexact HS7
    · iexists _; iexact HS8
  · iexact Hg

/-! ## The run -/

set_option backward.isDefEq.respectTransparency.types false in
/-- Every weakly fair execution of the program terminates, nothing faulting, with every array of the pipeline at
    what the write-backs leave and every other buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-! ## The result array -/

/-- What point `t` writes back is block `t` of the graph convolution. -/
theorem flushed5_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after5]
  exact Window.cut_fill _ _ _ _

/-- An index of the result is in point `t`'s block iff its row is among the rows the transfer moves. -/
theorem mem_blk5 (t : Fin cfg0.N) (i : S10000x128.Idx) :
    i ∈ ((cfg0.win 5).blk t).view.set ↔ ∀ a : Fin 2, win0_5.index t a * S320x128.size a ≤ (i a).val
      ∧ (i a).val < win0_5.index t a * S320x128.size a + win0_5.xsize (grid0.coords t) a := by
  show i ∈ ((View.whole main_v1).slice (win0_5.rect t)).set ↔ _
  rw [View.set_slice_whole, Rect.mem_set_unit]
  exact Iff.rfl

/-- Every row is in the block of point (row / 320). -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = (i 0).val / 320 :=
    ⟨⟨(i 0).val / 320, by have : cfg0.N = 32 := N_0; omega⟩, rfl⟩
  refine ⟨t, flush0_5 t, ?_⟩
  rw [mem_blk5]
  obtain ⟨-, -, -, -, -, -, -, -, -, -, -, i50, i51⟩ := grid_facts t
  obtain ⟨-, -, x51, x5le, x5in, x5or⟩ := clip_facts t
  intro a
  match a with
  | ⟨0, _⟩ =>
    show win0_5.index t (0 : Fin 2) * 320 ≤ (i 0).val
      ∧ (i 0).val < win0_5.index t (0 : Fin 2) * 320 + win0_5.xsize (grid0.coords t) (0 : Fin 2)
    omega
  | ⟨1, _⟩ =>
    show win0_5.index t (1 : Fin 2) * 128 ≤ (i 1).val
      ∧ (i 1).val < win0_5.index t (1 : Fin 2) * 128 + win0_5.xsize (grid0.coords t) (1 : Fin 2)
    omega

/-- The result array after the run is the graph convolution of the arrays as the region found them. -/
theorem final5 (c : Dev nD) : (dats m 0 c).arrAt 5 cfg0.N = target m c :=
  (dats m 0 c).arrAt_eq_of_cover 5 (target m c) (fun t _ => flushed5_eq m c t) cover5

/-- The same over the launch memory: no host operation before the region writes an argument. -/
theorem target_eq (c : Dev nD) :
    target m c = Cert.Gcn.conv (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold target
  rw [show xArr m c = m ((c.tc : Thread nD τ).loc main_arg0) from V_main_arg0 m c,
    show adjArr m c = m ((c.tc : Thread nD τ).loc main_arg1) from V_main_arg1 m c,
    show wArr m c = m ((c.tc : Thread nD τ).loc main_arg2) from V_main_arg2 m c,
    show wlArr m c = m ((c.tc : Thread nD τ).loc main_arg3) from V_main_arg3 m c,
    show bArr m c = m ((c.tc : Thread nD τ).loc main_arg4) from V_main_arg4 m c]

/-! ## The two claims about this program -/

/-- The program runs to the end and its argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- And its result ends holding the graph convolution of the arguments. -/
theorem run_value : θ_run defs (onTc (τ := τ) (main (F := Ideal))) ⟨m, fun _ => 0, ρ⟩ (fun r => ∀ c : Dev nD,
      r.2.mem ((c.tc : Thread nD τ).loc main_v1)
          = Cert.Gcn.conv (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans ((final5 m c).trans (target_eq m c)),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c)⟩)
    (run_main m ρ)

end Cert.KernelIdeal.Gcn

end
-- ==== Proof.RefValue.lean ====
/-
  The reference program's result is the graph convolution of the specification.

  The reference computes, index by index, three matrix products, adds two of them, and adds the bias spread over the
  rows last:
    out(r, c) = (Σ_k adj(r, k) · (Σ_j x(k, j) · W(j, c)) + Σ_j x(r, j) · Wl(j, c)) + b(c).
  Each product reads its operands at an index built from the coordinates of the result index; those indices are the
  pairs (row, column) the specification writes. What is left is the grouping of the three summands, which the
  specification's associativity statement settles.
-/
import proofs.«178778_g28991029248529_cont_9to1_2130_11_alg».proof.Proof.Gen.ReferenceIdeal.Read
import proofs.«178778_g28991029248529_cont_9to1_2130_11_alg».proof.Proof.Spec

noncomputable section

open scoped BigOperators

namespace Cert.Gcn.Ref

open Cert.ReferenceIdeal Cert.ReferenceIdeal.Gen Cert.ReferenceIdeal.Read Idealize.ShloMosaic Idealize.ShloMosaic.ValueIdx

/-! ## The operand indices of the three products, by coordinates -/

/-- The product x · W at i, summand k: the left operand is read at (i₀, k). -/
theorem lidx_v0_eq (i : S10000x128.Idx) (k : Fin 128) : lidx_main_v0 i k = ix2 (i 0) k :=
  funext fun a => Fin.ext (by match a with | ⟨0, _⟩ => rfl | ⟨1, _⟩ => rfl)

/-- The product x · W at i, summand k: the right operand is read at (k, i₁). -/
theorem ridx_v0_eq (i : S10000x128.Idx) (k : Fin 128) : ridx_main_v0 i k = ix2 k (i 1) :=
  funext fun a => Fin.ext (by match a with | ⟨0, _⟩ => rfl | ⟨1, _⟩ => rfl)

/-- The product x · Wl at i, summand k: the left operand is read at (i₀, k). -/
theorem lidx_v1_eq (i : S10000x128.Idx) (k : Fin 128) : lidx_main_v1 i k = ix2 (i 0) k :=
  funext fun a => Fin.ext (by match a with | ⟨0, _⟩ => rfl | ⟨1, _⟩ => rfl)

/-- The product x · Wl at i, summand k: the right operand is read at (k, i₁). -/
theorem ridx_v1_eq (i : S10000x128.Idx) (k : Fin 128) : ridx_main_v1 i k = ix2 k (i 1) :=
  funext fun a => Fin.ext (by match a with | ⟨0, _⟩ => rfl | ⟨1, _⟩ => rfl)

/-- The product adj · (x · W) at i, summand k: the adjacency is read at (i₀, k). -/
theorem lidx_v2_eq (i : S10000x128.Idx) (k : Fin 10000) : lidx_main_v2 i k = ix2 (i 0) k :=
  funext fun a => Fin.ext (by match a with | ⟨0, _⟩ => rfl | ⟨1, _⟩ => rfl)

/-- The product adj · (x · W) at i, summand k: the inner product is read at (k, i₁). -/
theorem ridx_v2_eq (i : S10000x128.Idx) (k : Fin 10000) : ridx_main_v2 i k = ix2 k (i 1) :=
  funext fun a => Fin.ext (by match a with | ⟨0, _⟩ => rfl | ⟨1, _⟩ => rfl)

/-- The bias spread over the rows, at i: the bias is read at i₁. -/
theorem idx_v4_v5_eq (i : S10000x128.Idx) : idx_main_v4 (idx_main_v5 i) = ix1 (i 1) :=
  funext fun a => Fin.ext (by match a with | ⟨0, _⟩ => rfl)

/-! ## The three products at an index -/

/-- The product x · W at (k, c) is the specification's support. -/
theorem v0_apply (x0 : (⟨S10000x128, .f32⟩ : BufTy).Contents (Elt Ideal)) (x2 : (⟨S128x128, .f32⟩ : BufTy).Contents (Elt Ideal))
    (k : Fin 10000) (c : Fin 128) :
    val_main_v0 (F := Ideal) x0 x2 (ix2 k c) = Cert.Gcn.support x0 x2 k c := by
  rw [val_main_v0_apply]
  unfold Cert.Gcn.support
  refine Finset.sum_congr rfl fun j _ => ?_
  rw [lidx_v0_eq, ridx_v0_eq]
  rfl

/-- The reference's result at an index is the specification's. -/
theorem reference_eq_conv (x0 : (⟨Cert.ReferenceIdeal.S10000x128, .f32⟩ : BufTy).Contents (Elt Ideal)) (x1 : (⟨Cert.ReferenceIdeal.S10000x10000, .f32⟩ : BufTy).Contents (Elt Ideal)) (x2 x3 : (⟨Cert.ReferenceIdeal.S128x128, .f32⟩ : BufTy).Contents (Elt Ideal)) (x4 : (⟨Cert.ReferenceIdeal.S128, .f32⟩ : BufTy).Contents (Elt Ideal)) :
    Cert.ReferenceIdeal.Read.val_main_v6 (F := Ideal) x0 x1 x2 x3 x4 = Cert.Gcn.conv x0 x1 x2 x3 x4 := by
  funext i
  rw [val_main_v6_apply, val_main_v3_apply, val_main_v5_apply, val_main_v4_apply, val_main_v2_apply, val_main_v1_apply,
    idx_v4_v5_eq]
  refine Eq.trans ?_ (Cert.Gcn.conv_eq_bias_last x0 x1 x2 x3 x4 i)
  show (_ + _) + _ = (_ + _) + _
  congr 1
  congr 1
  · refine Finset.sum_congr rfl fun k _ => ?_
    rw [lidx_v2_eq, ridx_v2_eq]
    congr 1
    exact v0_apply x0 x2 k (i 1)
  · refine Finset.sum_congr rfl fun j _ => ?_
    rw [lidx_v1_eq, ridx_v1_eq]
    rfl

end Cert.Gcn.Ref

end
-- ==== Proof.lean ====
/-
  A graph convolution  out = adj · (x · W) + x · Wl + b  over x : f32[10000, 128], adj : f32[10000, 10000], W and
  Wl : f32[128, 128], b : f32[128].

  The kernel is one fused call on a grid of 32 row blocks of 320 rows. At the first point it keeps, in two resident
  buffers, the support S = x · W and T = x · Wl + b; at every point it writes one block of
  adj · S + T. The reference computes (adj · (x · W) + x · Wl) + b with three whole matrix products. Over the extended
  reals a matrix product into a zero accumulator is the plain sum of products, a row of a product depends on that row
  of its left operand alone, and addition is associative: so both programs compute, index by index,
      Σ_k adj(r, k) · (Σ_j x(k, j) · W(j, c)) + (Σ_j x(r, j) · Wl(j, c) + b(c)).
  The last block overhangs the arrays by 240 rows: the rows of the adjacency block past the array's end hold
  words nothing names, they reach only output rows that are not written back, and so the kept rows are exactly the
  specification's (Proof/Rows.lean). No finiteness of the inputs is used.

  The word-level program's frame (it terminates, faults nowhere, leaves its arguments unchanged) says nothing about
  what any buffer holds (Proof/KFrame.lean); the idealized program's frame and its result come from one run whose
  proof data name every buffer (Proof/Data.lean, Proof/Oblig.lean, Proof/Final.lean); the reference's run and its
  reading index by index are imported, and Proof/RefValue.lean identifies its result with the specification
  (Proof/Spec.lean). The idealization rewrote no operation: the preservation claim is trivial.
-/
import proofs.«178778_g28991029248529_cont_9to1_2130_11_alg».proof.Defs
import proofs.«178778_g28991029248529_cont_9to1_2130_11_alg».proof.Proof.Gen.Kernel
import proofs.«178778_g28991029248529_cont_9to1_2130_11_alg».proof.Proof.Gen.KernelIdeal
import proofs.«178778_g28991029248529_cont_9to1_2130_11_alg».proof.Proof.Gen.ReferenceIdeal
import proofs.«178778_g28991029248529_cont_9to1_2130_11_alg».proof.Proof.Gen.Pre_finite_inputs
import proofs.«178778_g28991029248529_cont_9to1_2130_11_alg».proof.Proof.Gen.ReferenceIdeal.Run
import proofs.«178778_g28991029248529_cont_9to1_2130_11_alg».proof.Proof.Gen.ReferenceIdeal.Read
import proofs.«178778_g28991029248529_cont_9to1_2130_11_alg».proof.Proof.KFrame
import proofs.«178778_g28991029248529_cont_9to1_2130_11_alg».proof.Proof.Final
import proofs.«178778_g28991029248529_cont_9to1_2130_11_alg».proof.Proof.RefValue
import Idealize.ShloMosaic.Adequacy
import Idealize.ShloMosaic.Init

noncomputable section

namespace Cert.Proof

open Idealize.ShloMosaic Idealize.SL.Sem

/-- The word-level program runs to the end and leaves its arguments unchanged. -/
theorem frame_k : Cert.frame_Kernel := fun m ρ _ => Cert.Kernel.Gcn.frame (F := Bits) m ρ

/-- So does the idealized program. -/
theorem frame_ki : Cert.frame_KernelIdeal := fun m ρ _ => Cert.KernelIdeal.Gcn.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the graph convolution of the arguments. -/
theorem algebraic : Cert.algebraic_KernelIdeal_ReferenceIdeal := by
  intro m ρ m' ρ' _ hagree
  refine ⟨_, Cert.KernelIdeal.Gcn.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Gcn.Ref.reference_eq_conv,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
